-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S32x1 .f32) (main_arg8 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x3200000 32) (main_arg2 : IVec S2x3200000 32) (main_arg3 : FVec F S64x32 .f32) (main_arg4 : FVec F S32 .f32) (main_arg5 : FVec F S64x32 .f32) (main_arg6 : FVec F S32 .f32) (main_arg7 : FVec F S32x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x64 : Shape := ⟨2, ![64, 64]⟩
abbrev S5000x64 : Shape := ⟨2, ![5000, 64]⟩
abbrev S100000x32 : Shape := ⟨2, ![100000, 32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x1 : Shape := ⟨2, ![100000, 1]⟩
abbrev S5000x32 : Shape := ⟨2, ![5000, 32]⟩
abbrev S5000x1 : Shape := ⟨2, ![5000, 1]⟩
abbrev S5000 : Shape := ⟨1, ![5000]⟩
abbrev S1x1 : Shape := ⟨2, ![1, 1]⟩

abbrev nBuf : Space → Nat
  | .hbm => 128
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S2x3200000, .i32⟩
  | .hbm, ⟨3, _⟩ => ⟨S64x32, .f32⟩
  | .hbm, ⟨4, _⟩ => ⟨S32, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S64x64, .f32⟩
  | .hbm, ⟨10, _⟩ => ⟨S100000x64, .f32⟩
  | .hbm, ⟨11, _⟩ => ⟨S100000x32, .f32⟩
  | .hbm, ⟨12, _⟩ => ⟨S100000x32, .f32⟩
  | .hbm, ⟨13, _⟩ => ⟨S100000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S1x3200000, .i32⟩
  | .hbm, ⟨18, _⟩ => ⟨S3200000, .i32⟩
  | .hbm, ⟨19, _⟩ => ⟨S3300000, .i32⟩
  | .hbm, ⟨20, _⟩ => ⟨S_, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x32, .f32⟩
  | .hbm, ⟨62, _⟩ => ⟨S3300000x1, .f32⟩
  | .hbm, ⟨63, _⟩ => ⟨S3300000x32, .f32⟩
  | .hbm, ⟨64, _⟩ => ⟨S3300000x32, .f32⟩
  | .hbm, ⟨65, _⟩ => ⟨S_, .f32⟩
  | .hbm, ⟨66, _⟩ => ⟨S100000x32, .f32⟩
  | .hbm, ⟨67, _⟩ => ⟨S3300000x1, .i32⟩
  | .hbm, ⟨68, _⟩ => ⟨S100000x32, .f32⟩
  | .hbm, ⟨69, _⟩ => ⟨S100000, .i32⟩
  | .hbm, ⟨70, _⟩ => ⟨S1x3200000, .i32⟩
  | .hbm, ⟨71, _⟩ => ⟨S3200000, .i32⟩
  | .hbm, ⟨72, _⟩ => ⟨S3300000, .i32⟩
  | .hbm, ⟨73, _⟩ => ⟨S1x3200000, .i32⟩
  | .hbm, ⟨74, _⟩ => ⟨S3200000, .i32⟩
  | .hbm, ⟨75, _⟩ => ⟨S3300000, .i32⟩
  | .hbm, ⟨76, _⟩ => ⟨S_, .f32⟩
  | .hbm, ⟨77, _⟩ => ⟨S3300000, .f32⟩
  | .hbm, ⟨78, _⟩ => ⟨S_, .f32⟩
  | .hbm, ⟨79, _⟩ => ⟨S100000, .f32⟩
  | .hbm, ⟨80, _⟩ => ⟨S3300000x1, .i32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .i1⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000, .f32⟩
  | .hbm, ⟨99, _⟩ => ⟨S_, .i32⟩
  | .hbm, ⟨100, _⟩ => ⟨S3300000, .i32⟩
  | .hbm, ⟨101, _⟩ => ⟨S3300000, .i1⟩
  | .hbm, ⟨102, _⟩ => ⟨S_, .i32⟩
  | .hbm, ⟨103, _⟩ => ⟨S3300000, .i32⟩
  | .hbm, ⟨104, _⟩ => ⟨S3300000, .i32⟩
  | .hbm, ⟨105, _⟩ => ⟨S3300000, .i32⟩
  | .hbm, ⟨106, _⟩ => ⟨S3300000x1, .i32⟩
  | .hbm, ⟨107, _⟩ => ⟨S3300000, .f32⟩
  | .hbm, ⟨108, _⟩ => ⟨S3300000, .f32⟩
  | .hbm, ⟨109, _⟩ => ⟨S_, .i32⟩
  | .hbm, ⟨110, _⟩ => ⟨S3300000, .i32⟩
  | .hbm, ⟨111, _⟩ => ⟨S3300000, .i1⟩
  | .hbm, ⟨112, _⟩ => ⟨S_, .i32⟩
  | .hbm, ⟨113, _⟩ => ⟨S3300000, .i32⟩
  | .hbm, ⟨114, _⟩ => ⟨S3300000, .i32⟩
  | .hbm, ⟨115, _⟩ => ⟨S3300000, .i32⟩
  | .hbm, ⟨116, _⟩ => ⟨S3300000x1, .i32⟩
  | .hbm, ⟨117, _⟩ => ⟨S3300000x32, .f32⟩
  | .hbm, ⟨118, _⟩ => ⟨S3300000x1, .f32⟩
  | .hbm, ⟨119, _⟩ => ⟨S3300000x32, .f32⟩
  | .hbm, ⟨120, _⟩ => ⟨S3300000x32, .f32⟩
  | .hbm, ⟨121, _⟩ => ⟨S_, .f32⟩
  | .hbm, ⟨122, _⟩ => ⟨S100000x32, .f32⟩
  | .hbm, ⟨123, _⟩ => ⟨S3300000x1, .i32⟩
  | .hbm, ⟨124, _⟩ => ⟨S100000x32, .f32⟩
  | .hbm, ⟨125, _⟩ => ⟨S1x32, .f32⟩
  | .hbm, ⟨126, _⟩ => ⟨S100000x1, .f32⟩
  | .hbm, ⟨127, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S32, .f32⟩
  | .local _ .vmem, ⟨10, _⟩ => ⟨S32, .f32⟩
  | .local _ .vmem, ⟨11, _⟩ => ⟨S1x32, .f32⟩
  | .local _ .vmem, ⟨12, _⟩ => ⟨S1, .f32⟩
  | .local _ .vmem, ⟨13, _⟩ => ⟨S5000x1, .f32⟩
  | .local _ .vmem, ⟨14, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S64x32_S64x32_S64x64_d1 : Shape.Concatenates [S64x32, S64x32] S64x64 1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S100000x64_S100000x32_0_0 : S100000x64.Slices ![0, 0] S100000x32
  slices_S100000x64_S100000x32_0_32 : S100000x64.Slices ![0, 32] S100000x32
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32x1_S1x32 : S32x1.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  reduces_S5000x32_S5000 : S5000x32.Reduces [1] S5000
  shapeCasts_S5000_S5000x1 : S5000.ShapeCasts S5000x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  dot_S5000x64_S64x64_S5000x64_1_0_0_1_n_n_wf : DotDims.WF S5000x64 S64x64 S5000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S100000x1.size a
  hwx1_6 : ∀ i : grid1.Coords, EltTy.bits .f32 = 32 ∨ (Rect.block (s := S100000x1) S5000x1.size (cc1_transform_6 i) (hinb1_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v90) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v91) S5000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x32 : Shape := ⟨2, ![100000, 32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S100000x64, .f32⟩
  | 1 => ⟨S2x3200000, .i32⟩
  | 2 => ⟨S2x3200000, .i32⟩
  | 3 => ⟨S64x32, .f32⟩
  | 4 => ⟨S32, .f32⟩
  | 5 => ⟨S64x32, .f32⟩
  | 6 => ⟨S32, .f32⟩
  | 7 => ⟨S32x1, .f32⟩
  | 8 => ⟨S1, .f32⟩
  | 9 => ⟨S100000x32, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x32, .f32⟩
  | 59 => ⟨S3300000x1, .f32⟩
  | 60 => ⟨S3300000x32, .f32⟩
  | 61 => ⟨S3300000x32, .f32⟩
  | 62 => ⟨S_, .f32⟩
  | 63 => ⟨S100000x32, .f32⟩
  | 64 => ⟨S3300000x1, .i32⟩
  | 65 => ⟨S100000x32, .f32⟩
  | 66 => ⟨S1x32, .f32⟩
  | 67 => ⟨S100000x32, .f32⟩
  | 68 => ⟨S100000x32, .f32⟩
  | 69 => ⟨S100000x32, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x32, .f32⟩
  | 119 => ⟨S3300000x1, .f32⟩
  | 120 => ⟨S3300000x32, .f32⟩
  | 121 => ⟨S3300000x32, .f32⟩
  | 122 => ⟨S_, .f32⟩
  | 123 => ⟨S100000x32, .f32⟩
  | 124 => ⟨S3300000x1, .i32⟩
  | 125 => ⟨S100000x32, .f32⟩
  | 126 => ⟨S1x32, .f32⟩
  | 127 => ⟨S100000x32, .f32⟩
  | _ => ⟨S100000x64, .f32⟩

abbrev hbmTy0_1 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S100000x1, .f32⟩
  | 6 => ⟨S1x1, .f32⟩
  | 7 => ⟨S100000x1, .f32⟩
  | 8 => ⟨S100000x1, .f32⟩
  | 9 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call2_cst : Ref sig .tc := ⟨.hbm, 130, rfl⟩
abbrev main_call2_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x64_S64x32_S100000x32_1_0_0_1_n_n_wf : DotDims.WF S100000x64 S64x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []

variable [Facts₀]

def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.RefSide.lean ====
/-
  The reference program's result, regrouped. Each branch of the layer is: project the node features, then AGGREGATE along one
  edge list (gather the projected rows at the sources, scale each by the product of the inverse square roots of the two
  endpoint degrees, scatter-add into the destinations). The aggregation depends on the projected features only through the
  gather's operand; everything else in it is a function of the edge list alone. So the result is
      readout (aggNear (x · W_near) e_near) (aggSim (x · W_similar) e_similar) b_near b_similar W_lin b_lin ,
  and the two aggregations never have to be opened.
-/
import proofs.«140547_j43645457662174_1_alg».proof.Proof.RefReadAt

noncomputable section

namespace Cert.ReferenceIdeal.Hand

open Cert.ReferenceIdeal Cert.ReferenceIdeal.Read Idealize.ShloMosaic Idealize.ShloMosaic.TcCoe

variable {F : FTy → Type} [FloatOps F]

/-- The aggregation along the first edge list, of ANY array of projected features. -/
def aggNear (xw : (⟨S100000x32, .f32⟩ : BufTy).Contents (Elt F)) (x1 : (⟨S2x3200000, .i32⟩ : BufTy).Contents (Elt F)) :
    (⟨S100000x32, .f32⟩ : BufTy).Contents (Elt F) :=
  Host.scatterAdd scatter_S100000x32_S3300000x1_S3300000x32_1_0_0_1 (val_main_v41 (F := F)) (val_main_v42 (F := F) x1)
    (mulf (Host.gather gather_S100000x32_S3300000x1_S3300000x32_1_0_n_n_0_1_132 xw (val_main_v36 (F := F) x1)) (val_main_v39 (F := F) x1))

/-- The aggregation along the second edge list, of any array of projected features. -/
def aggSim (xw : (⟨S100000x32, .f32⟩ : BufTy).Contents (Elt F)) (x2 : (⟨S2x3200000, .i32⟩ : BufTy).Contents (Elt F)) :
    (⟨S100000x32, .f32⟩ : BufTy).Contents (Elt F) :=
  Host.scatterAdd scatter_S100000x32_S3300000x1_S3300000x32_1_0_0_1 (val_main_v88 (F := F)) (val_main_v89 (F := F) x2)
    (mulf (Host.gather gather_S100000x32_S3300000x1_S3300000x32_1_0_n_n_0_1_132 xw (val_main_v83 (F := F) x2)) (val_main_v86 (F := F) x2))

/-- The first branch before its bias is the aggregation of the first projection. -/
theorem near_eq (x0 : (⟨S100000x64, .f32⟩ : BufTy).Contents (Elt F)) (x1 : (⟨S2x3200000, .i32⟩ : BufTy).Contents (Elt F))
    (x3 : (⟨S64x32, .f32⟩ : BufTy).Contents (Elt F)) :
    val_main_v43 (F := F) x0 x1 x3 = aggNear (val_main_v0 (F := F) x0 x3) x1 := rfl

/-- The second branch before its bias is the aggregation of the second projection. -/
theorem sim_eq (x0 : (⟨S100000x64, .f32⟩ : BufTy).Contents (Elt F)) (x2 : (⟨S2x3200000, .i32⟩ : BufTy).Contents (Elt F))
    (x5 : (⟨S64x32, .f32⟩ : BufTy).Contents (Elt F)) :
    val_main_v90 (F := F) x0 x2 x5 = aggSim (val_main_v47 (F := F) x0 x5) x2 := rfl

end Cert.ReferenceIdeal.Hand

end
-- ==== Proof.Fold.lean ====
/-
  What the buffers hold at each boundary of the kernel program's run, read back to the arguments.

  The program is: one host operation (the two weight matrices joined side by side), the projection region, five stretches
  of host operations (the two halves of the projected array cut out, then each aggregated along its edge list, and the
  readout weights laid out as a row), the readout region, and one last reshape. The host stretches between the regions are
  the reference's own aggregation, operation for operation, so what they leave in the two aggregated arrays is stated
  with the reference's functions `aggNear` / `aggSim` of the halves of whatever the projection region left.
-/
import proofs.«140547_j43645457662174_1_alg».proof.Proof.Gen.KernelIdeal.Frame
import proofs.«140547_j43645457662174_1_alg».proof.Proof.RefSide
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## Between the two regions, from ANY contents `X` at the first region's exit -/

/-- The five host stretches between the regions, run from `X`. -/
abbrev mid (X : Valuation τ sig (Elt F)) : Valuation τ sig (Elt F) :=
  StableHlo.after hostOps1_4 (StableHlo.after hostOps1_3 (StableHlo.after hostOps1_2 (StableHlo.after hostOps1_1 (StableHlo.after hostOps1 X))))

set_option maxHeartbeats 8000000 in
/-- The first aggregated array: the aggregation along the first edge list of the LEFT half (columns 0 … 31) of the
    projected array. -/
theorem mid_near (X : Valuation τ sig (Elt F)) :
    mid X (Proc.devRef .tc main_v46)
      = Cert.ReferenceIdeal.Hand.aggNear
          (extractStridedSlice S100000x32 ![0, 0] (X (Proc.devRef .tc main_v1)) slices_S100000x64_S100000x32_0_0)
          (X (Proc.devRef .tc main_arg1)) := by
  after_results_simp <;> (try simp only [TRef.ofBuf, TRef.toBuf, cast_eq]) <;> rfl

set_option maxHeartbeats 8000000 in
/-- The second aggregated array: the aggregation along the second edge list of the RIGHT half (columns 32 … 63). -/
theorem mid_sim (X : Valuation τ sig (Elt F)) :
    mid X (Proc.devRef .tc main_v89)
      = Cert.ReferenceIdeal.Hand.aggSim
          (extractStridedSlice S100000x32 ![0, 32] (X (Proc.devRef .tc main_v1)) slices_S100000x64_S100000x32_0_32)
          (X (Proc.devRef .tc main_arg2)) := by
  after_results_simp <;> (try simp only [TRef.ofBuf, TRef.toBuf, cast_eq]) <;> rfl

set_option maxHeartbeats 8000000 in
/-- The readout weights as a row. -/
theorem mid_row (X : Valuation τ sig (Elt F)) :
    mid X (Proc.devRef .tc main_v90) = shapeCast S1x32 (X (Proc.devRef .tc main_arg7)) shapeCasts_S32x1_S1x32 := by
  after_results_simp <;> rfl

set_option maxHeartbeats 8000000 in
/-- The two biases and the readout bias pass through untouched. -/
theorem mid_arg4 (X : Valuation τ sig (Elt F)) : mid X (Proc.devRef .tc main_arg4) = X (Proc.devRef .tc main_arg4) := by
  after_results_simp <;> rfl
set_option maxHeartbeats 8000000 in
theorem mid_arg6 (X : Valuation τ sig (Elt F)) : mid X (Proc.devRef .tc main_arg6) = X (Proc.devRef .tc main_arg6) := by
  after_results_simp <;> rfl
set_option maxHeartbeats 8000000 in
theorem mid_arg8 (X : Valuation τ sig (Elt F)) : mid X (Proc.devRef .tc main_arg8) = X (Proc.devRef .tc main_arg8) := by
  after_results_simp <;> rfl

/-! ## The boundaries of the run, read back to the launch memory -/

variable (m : (ℓ : Loc nD τ sig) → Buf (Elt F) ℓ) (ρ : Dev nD → PrngReg)

/-- The first host operation joins the two weight matrices side by side. -/
theorem W1_joined (c : Dev nD) :
    W1 m ρ c (Proc.devRef .tc main_v0)
      = concatenate S64x64 1 [⟨S64x32, m ((c : Thread nD τ).loc main_arg3)⟩, ⟨S64x32, m ((c : Thread nD τ).loc main_arg5)⟩]
          concatenates_S64x32_S64x32_S64x64_d1 := by
  show StableHlo.after hostOps0 (W0 m ρ c) (Proc.devRef .tc main_v0) = _
  after_results_simp <;> rfl

/-- … and writes nothing else: any other buffer is as launched when the first region is entered. -/
theorem W1_kept (c : Dev nD) (b : Ref sig .tc) (hb : b ≠ main_v0) :
    W1 m ρ c (Proc.devRef .tc b) = m ((c : Thread nD τ).loc b) := by
  show StableHlo.after hostOps0 (W0 m ρ c) (Proc.devRef .tc b) = _
  simp only [hostOps0, after_cons, after_nil]
  exact binary_result_ne (h := hb) ..

/-- A buffer the first region does not stage, and the first host operation does not write, is as launched at the region's
    exit. -/
theorem W2_kept (c : Dev nD) (b : Ref sig .tc) (h0 : ∀ w, Pipeline.arrRef spec0 w ≠ b) (hb : b ≠ main_v0) :
    W2 m ρ c (Proc.devRef .tc b) = m ((c : Thread nD τ).loc b) :=
  (W2_of_ne m ρ c b h0).trans (W1_kept m ρ c b hb)

/-- The second region is entered from the five host stretches run on the first region's exit contents. -/
theorem W7_eq_mid (c : Dev nD) : W7 m ρ c = mid (W2 m ρ c) := rfl

set_option maxHeartbeats 4000000 in
/-- The last host operation reshapes the readout column to the result vector. -/
theorem W9_result (c : Dev nD) :
    W9 m ρ c (Proc.devRef .tc main_v92)
      = shapeCast S100000 (W8 m ρ c (Proc.devRef .tc main_v91)) shapeCasts_S100000x1_S100000 := by
  show StableHlo.after hostOps2 (W8 m ρ c) (Proc.devRef .tc main_v92) = _
  after_results_simp <;> rfl

end Cert.KernelIdeal.Hand

end
-- ==== Proof.Spec.lean ====
/-
  The two dense stages of the graph layer as whole-array functions on the extended reals, index by index.

  * `projG x w`: the product of the node features `x` (100000 × 64) with a 64 × 64 weight matrix: entry (r, j) is
    the sum over k of x[r, k] · w[k, j].
  * `combG a s bn bs wl bl`: the readout. With a and s the two aggregated branches (100000 × 32), bn and bs their
    biases, wl the 1 × 32 row of readout weights and bl the readout bias, entry (r, 0) is
    (sum over k of max (a[r,k] + s[r,k] + bn[k] + bs[k], 0) · wl[0,k]) + bl[0].
-/
import Idealize.ShloMosaic.PureOps.Ideal
import Idealize.ShloMosaic.Lib.ValueIdx

noncomputable section

open scoped BigOperators

namespace Cert.Spec

open Idealize.ShloMosaic Idealize.ShloMosaic.ValueIdx

/-- Rows of `x` against columns of `w`. -/
def projG (x : (⟨2, ![100000, 64]⟩ : Shape).Idx → EReal) (w : (⟨2, ![64, 64]⟩ : Shape).Idx → EReal) :
    (⟨2, ![100000, 64]⟩ : Shape).Idx → EReal :=
  fun i => ∑ k : Fin 64, x (ix2 (i 0) k) * w (ix2 k (i 1))

theorem projG_apply (x : (⟨2, ![100000, 64]⟩ : Shape).Idx → EReal) (w : (⟨2, ![64, 64]⟩ : Shape).Idx → EReal)
    (r : Fin 100000) (j : Fin 64) : projG x w (ix2 r j) = ∑ k : Fin 64, x (ix2 r k) * w (ix2 k j) := rfl

/-- The rectified sum of the two branches and their biases, weighted along the row and shifted by the readout bias. -/
def combG (a s : (⟨2, ![100000, 32]⟩ : Shape).Idx → EReal) (bn bs : (⟨1, ![32]⟩ : Shape).Idx → EReal)
    (wl : (⟨2, ![1, 32]⟩ : Shape).Idx → EReal) (bl : (⟨1, ![1]⟩ : Shape).Idx → EReal) :
    (⟨2, ![100000, 1]⟩ : Shape).Idx → EReal :=
  fun i => (∑ k : Fin 32, max (a (ix2 (i 0) k) + s (ix2 (i 0) k) + bn (ix1 k) + bs (ix1 k)) 0 * wl (ix2 0 k)) + bl (ix1 0)

theorem combG_apply (a s : (⟨2, ![100000, 32]⟩ : Shape).Idx → EReal) (bn bs : (⟨1, ![32]⟩ : Shape).Idx → EReal)
    (wl : (⟨2, ![1, 32]⟩ : Shape).Idx → EReal) (bl : (⟨1, ![1]⟩ : Shape).Idx → EReal) (r : Fin 100000) (z : Fin 1) :
    combG a s bn bs wl bl (ix2 r z)
      = (∑ k : Fin 32, max (a (ix2 r k) + s (ix2 r k) + bn (ix1 k) + bs (ix1 k)) 0 * wl (ix2 0 k)) + bl (ix1 0) := rfl

end Cert.Spec

end
-- ==== Proof.Bridge.lean ====
/-
  The three places where the two programs differ, each closed on the extended reals.

  * The kernel multiplies the node features by the two weight matrices JOINED side by side and then cuts the product in
    two; the reference multiplies by each matrix. Column j of the joined matrix is column j of the first matrix for
    j < 32 and column j - 32 of the second for j ≥ 32, so each half of the product is the product with that matrix
    (`left_half`, `right_half`): term by term the same sum over the 64 features.
  * The kernel adds the two aggregated branches first and the two biases afterwards, the reference adds each bias to its
    branch first: (a + s) + bn + bs = (a + bn) + (s + bs), by commutativity and associativity of + on the extended reals
    (no finiteness is needed: no term is cancelled or distributed).
  * The kernel's readout is a lane sum of products with the weights laid out as a ROW, the reference's a matrix product
    with the weights as a COLUMN: the row's entry (0, k) is the column's entry (k, 0).
-/
import proofs.«140547_j43645457662174_1_alg».proof.Proof.RefSide
import proofs.«140547_j43645457662174_1_alg».proof.Proof.Spec
import proofs.«140547_j43645457662174_1_alg».proof.KernelIdeal
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.TcCoe Idealize.ShloMosaic.ValueIdx
open Cert.Spec Cert.ReferenceIdeal Cert.ReferenceIdeal.Read Cert.ReferenceIdeal.Hand

/-! ## The two halves of the joined product -/

/-- Columns 0 … 31 of `x · [w3 | w5]` are `x · w3`. -/
theorem left_half (x : (⟨S100000x64, .f32⟩ : BufTy).Contents (Elt Ideal)) (w3 w5 : (⟨S64x32, .f32⟩ : BufTy).Contents (Elt Ideal))
    (hc : Shape.Concatenates [Cert.KernelIdeal.S64x32, Cert.KernelIdeal.S64x32] Cert.KernelIdeal.S64x64 1)
    (hs : Cert.KernelIdeal.S100000x64.Slices ![0, 0] Cert.KernelIdeal.S100000x32) :
    extractStridedSlice Cert.KernelIdeal.S100000x32 ![0, 0]
        (projG x (concatenate Cert.KernelIdeal.S64x64 1 [⟨Cert.KernelIdeal.S64x32, w3⟩, ⟨Cert.KernelIdeal.S64x32, w5⟩] hc)) hs
      = val_main_v0 (F := Ideal) x w3 := by
  funext i
  obtain ⟨r, j, rfl⟩ : ∃ (r : Fin 100000) (j : Fin 32), i = ix2 r j := ⟨i 0, i 1, eq_ix2 i⟩
  rw [val_main_v0_apply]
  have hj : j.val < 64 := by have := j.isLt; omega
  refine (extractStridedSlice_apply _ _ _ (ix2 r j) (ix2 r (⟨j.val, hj⟩ : Fin 64)) (fun a => ?_)).trans ?_
  · match a with
    | ⟨0, _⟩ => show r.val = 0 + r.val; omega
    | ⟨1, _⟩ => show j.val = 0 + j.val; omega
  · rw [projG_apply]
    refine Finset.sum_congr rfl fun k _ => ?_
    congr 1
    · exact congrArg x (funext fun a => by match a with | ⟨0, _⟩ => rfl | ⟨1, _⟩ => rfl)
    · refine concatenate_pair_apply_left (1 : Fin 2) w3 w5 _ (ix2 k (⟨j.val, hj⟩ : Fin 64)) rfl (ridx_main_v0 (ix2 r j) k) (fun b => ?_)
      match b with
      | ⟨0, _⟩ => rfl
      | ⟨1, _⟩ => rfl

/-- Columns 32 … 63 of `x · [w3 | w5]` are `x · w5`. -/
theorem right_half (x : (⟨S100000x64, .f32⟩ : BufTy).Contents (Elt Ideal)) (w3 w5 : (⟨S64x32, .f32⟩ : BufTy).Contents (Elt Ideal))
    (hc : Shape.Concatenates [Cert.KernelIdeal.S64x32, Cert.KernelIdeal.S64x32] Cert.KernelIdeal.S64x64 1)
    (hs : Cert.KernelIdeal.S100000x64.Slices ![0, 32] Cert.KernelIdeal.S100000x32) :
    extractStridedSlice Cert.KernelIdeal.S100000x32 ![0, 32]
        (projG x (concatenate Cert.KernelIdeal.S64x64 1 [⟨Cert.KernelIdeal.S64x32, w3⟩, ⟨Cert.KernelIdeal.S64x32, w5⟩] hc)) hs
      = val_main_v47 (F := Ideal) x w5 := by
  funext i
  obtain ⟨r, j, rfl⟩ : ∃ (r : Fin 100000) (j : Fin 32), i = ix2 r j := ⟨i 0, i 1, eq_ix2 i⟩
  rw [val_main_v47_apply]
  have hj : 32 + j.val < 64 := by have := j.isLt; omega
  refine (extractStridedSlice_apply _ _ _ (ix2 r j) (ix2 r (⟨32 + j.val, hj⟩ : Fin 64)) (fun a => ?_)).trans ?_
  · match a with
    | ⟨0, _⟩ => show r.val = 0 + r.val; omega
    | ⟨1, _⟩ => show 32 + j.val = 32 + j.val; rfl
  · rw [projG_apply]
    refine Finset.sum_congr rfl fun k _ => ?_
    congr 1
    · exact congrArg x (funext fun a => by match a with | ⟨0, _⟩ => rfl | ⟨1, _⟩ => rfl)
    · refine concatenate_pair_apply_right (1 : Fin 2) w3 w5 _ (ix2 k (⟨32 + j.val, hj⟩ : Fin 64)) rfl rfl (ridx_main_v47 (ix2 r j) k) (fun b hb => ?_) ?_
      · match b with
        | ⟨0, _⟩ => rfl
        | ⟨1, _⟩ => exact absurd rfl hb
      · show j.val + 32 = 32 + j.val; omega

/-! ## The readout -/

/-- One entry of the rectified hidden layer: the reference adds each bias to its branch, then the branches. -/
theorem hidden_elem (x0 : (⟨S100000x64, .f32⟩ : BufTy).Contents (Elt Ideal)) (x1 x2 : (⟨S2x3200000, .i32⟩ : BufTy).Contents (Elt Ideal))
    (x3 : (⟨S64x32, .f32⟩ : BufTy).Contents (Elt Ideal)) (x4 : (⟨S32, .f32⟩ : BufTy).Contents (Elt Ideal))
    (x5 : (⟨S64x32, .f32⟩ : BufTy).Contents (Elt Ideal)) (x6 : (⟨S32, .f32⟩ : BufTy).Contents (Elt Ideal))
    (r : Fin 100000) (k : Fin 32) :
    val_main_v95 (F := Ideal) x0 x1 x2 x3 x4 x5 x6 (ix2 r k)
      = max (val_main_v43 (F := Ideal) x0 x1 x3 (ix2 r k) + val_main_v90 (F := Ideal) x0 x2 x5 (ix2 r k) + x4 (ix1 k) + x6 (ix1 k)) 0 := by
  rw [val_main_v95_apply, val_main_v94_apply, val_main_v46_apply, val_main_v93_apply, val_main_v45_apply, val_main_v44_apply,
    val_main_v92_apply, val_main_v91_apply, val_main_call2_v0_apply, val_main_call2_cst_apply]
  have e4 : idx_main_v44 (idx_main_v45 (ix2 r k)) = ix1 k := funext fun a => by match a with | ⟨0, _⟩ => rfl
  have e6 : idx_main_v91 (idx_main_v92 (ix2 r k)) = ix1 k := funext fun a => by match a with | ⟨0, _⟩ => rfl
  rw [e4, e6]
  simp only [Ideal.maximumf_def, Ideal.addf_def, Ideal.ofBits_def, Ideal.ofBits_zero_f32]
  rw [add_add_add_comm, ← add_assoc]

/-- The readout of the kernel (a weighted lane sum against the weights as a row, plus the bias) is the reference's (a matrix
    product with the weights as a column, plus the bias), before the last reshape. -/
theorem readout_eq (x0 : (⟨S100000x64, .f32⟩ : BufTy).Contents (Elt Ideal)) (x1 x2 : (⟨S2x3200000, .i32⟩ : BufTy).Contents (Elt Ideal))
    (x3 : (⟨S64x32, .f32⟩ : BufTy).Contents (Elt Ideal)) (x4 : (⟨S32, .f32⟩ : BufTy).Contents (Elt Ideal))
    (x5 : (⟨S64x32, .f32⟩ : BufTy).Contents (Elt Ideal)) (x6 : (⟨S32, .f32⟩ : BufTy).Contents (Elt Ideal))
    (x7 : (⟨S32x1, .f32⟩ : BufTy).Contents (Elt Ideal)) (x8 : (⟨S1, .f32⟩ : BufTy).Contents (Elt Ideal))
    (hrow : Cert.KernelIdeal.S32x1.ShapeCasts Cert.KernelIdeal.S1x32) :
    combG (val_main_v43 (F := Ideal) x0 x1 x3) (val_main_v90 (F := Ideal) x0 x2 x5) x4 x6
        (shapeCast Cert.KernelIdeal.S1x32 x7 hrow) x8
      = val_main_v99 (F := Ideal) x0 x1 x2 x3 x4 x5 x6 x7 x8 := by
  funext i
  obtain ⟨r, z, rfl⟩ : ∃ (r : Fin 100000) (z : Fin 1), i = ix2 r z := ⟨i 0, i 1, eq_ix2 i⟩
  rw [combG_apply, val_main_v99_apply, val_main_v96_apply, val_main_v98_apply, val_main_v97_apply]
  show _ + _ = _ + _
  refine congrArg₂ (· + ·) ?_ ?_
  · refine Finset.sum_congr rfl fun k _ => ?_
    have el : lidx_main_v96 (ix2 r z) k = ix2 r k := funext fun a => by match a with | ⟨0, _⟩ => rfl | ⟨1, _⟩ => rfl
    rw [el, hidden_elem]
    refine congrArg₂ (· * ·) rfl ?_
    refine shapeCast_apply x7 _ (ix2 (0 : Fin 1) k) (ridx_main_v96 (ix2 r z) k) ?_
    rw [Shape.rowMajor_val_two, Shape.rowMajor_val_two]
    have hz : z.val = 0 := by have := z.isLt; omega
    show k.val * 1 + z.val = 0 * 32 + k.val
    omega
  · exact congrArg x8 (funext fun a => by match a with | ⟨0, _⟩ => rfl)

/-! ## The two results -/

/-- The kernel program's result — the readout of the two aggregated halves of the joined product, reshaped to a vector — is
    the reference's result term, for any arguments. The aggregations are carried as they are: only their operand changes,
    from a half of the joined product to the product with one matrix. -/
theorem result_eq (x0 : (⟨S100000x64, .f32⟩ : BufTy).Contents (Elt Ideal)) (x1 x2 : (⟨S2x3200000, .i32⟩ : BufTy).Contents (Elt Ideal))
    (x3 : (⟨S64x32, .f32⟩ : BufTy).Contents (Elt Ideal)) (x4 : (⟨S32, .f32⟩ : BufTy).Contents (Elt Ideal))
    (x5 : (⟨S64x32, .f32⟩ : BufTy).Contents (Elt Ideal)) (x6 : (⟨S32, .f32⟩ : BufTy).Contents (Elt Ideal))
    (x7 : (⟨S32x1, .f32⟩ : BufTy).Contents (Elt Ideal)) (x8 : (⟨S1, .f32⟩ : BufTy).Contents (Elt Ideal))
    (hc : Shape.Concatenates [Cert.KernelIdeal.S64x32, Cert.KernelIdeal.S64x32] Cert.KernelIdeal.S64x64 1)
    (hs0 : Cert.KernelIdeal.S100000x64.Slices ![0, 0] Cert.KernelIdeal.S100000x32)
    (hs32 : Cert.KernelIdeal.S100000x64.Slices ![0, 32] Cert.KernelIdeal.S100000x32)
    (hrow : Cert.KernelIdeal.S32x1.ShapeCasts Cert.KernelIdeal.S1x32)
    (hvec : Cert.KernelIdeal.S100000x1.ShapeCasts Cert.KernelIdeal.S100000) :
    shapeCast Cert.KernelIdeal.S100000
        (combG
          (aggNear (extractStridedSlice Cert.KernelIdeal.S100000x32 ![0, 0]
            (projG x0 (concatenate Cert.KernelIdeal.S64x64 1 [⟨Cert.KernelIdeal.S64x32, x3⟩, ⟨Cert.KernelIdeal.S64x32, x5⟩] hc)) hs0) x1)
          (aggSim (extractStridedSlice Cert.KernelIdeal.S100000x32 ![0, 32]
            (projG x0 (concatenate Cert.KernelIdeal.S64x64 1 [⟨Cert.KernelIdeal.S64x32, x3⟩, ⟨Cert.KernelIdeal.S64x32, x5⟩] hc)) hs32) x2)
          x4 x6 (shapeCast Cert.KernelIdeal.S1x32 x7 hrow) x8)
        hvec
      = val_main_v100 (F := Ideal) x0 x1 x2 x3 x4 x5 x6 x7 x8 := by
  rw [left_half, right_half, ← near_eq, ← sim_eq, readout_eq]
  rfl

end Cert.Bridge

end
-- ==== Proof.Project.lean ====
/-
  The projection stage (the first of the two kernel stages): after its 20 row blocks have been computed and written back, the output
  array holds the product of the node features (100000 × 64) with the 64 × 64 weight matrix.

  * the block product at an index: entry (p, q) of what the body stores is the sum over k of x0[p, k] · x1[k, q]
    (on the extended reals the narrowing to bf16 is the identity and the accumulator starts at zero);
  * the block index maps over the grid: point t's feature block and output block are block (t, 0), the weight
    block is the whole matrix;
  * what point t writes back is block t of the product of the whole arrays;
  * the 20 blocks of 5000 rows cover the 100000 rows: row r is in the block of point r / 5000.
-/
import proofs.«140547_j43645457662174_1_alg».proof.Proof.Gen.KernelIdeal.Frame
import proofs.«140547_j43645457662174_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem
open Idealize.ShloMosaic.Pipeline (Dat)
open scoped BigOperators

namespace Cert.KernelIdeal.Hand
open Cert.KernelIdeal Cert.KernelIdeal.Gen Cert.Spec Idealize.ShloMosaic.ValueIdx

/-! ## The block product at an index -/

/-- The left operand's row coordinate is the result's row. -/
theorem lhs_proj_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the contracted index. -/
theorem lhs_proj_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the contracted index. -/
theorem rhs_proj_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the result's column. -/
theorem rhs_proj_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the block the body stores: row p of the feature block against column q of the weights. -/
theorem proj_pay_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  rw [shapeCast_self]
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_proj_0 _ _
    | ⟨1, _⟩ => exact (lhs_proj_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_proj_0 _ _).trans hk
    | ⟨1, _⟩ => exact rhs_proj_1 _ _)
  rw [el, er]
  rfl

/-! ## The index maps over the grid -/

theorem hz : (![0, 0] : Fin 2 → Nat) = fun _ => 0 := funext fun a => by fin_cases a <;> rfl

/-- Point t's feature block and output block are block (t, 0); the weight block is block (0, 0). -/
theorem proj_idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-! ## The blocks the body reads, as entries of the whole arrays -/

/-- Entry (p, k) of point t's feature block is entry (5000 t + p, k) of the feature array. -/
theorem feat_blk_apply (c : Dev nD) (t : Fin cfg0.N) (p : Fin 5000) (k : Fin 64) (r : Fin 100000)
    (hr : r.val = t.val * 5000 + p.val) :
    (iblk0 (F := Ideal) V c 0 t : Vec Ideal S5000x64 .f32) (ix2 p k) = V c main_arg0 (ix2 r k) := by
  obtain ⟨e00, e01, -, -, -, -⟩ := proj_idx_facts t
  unfold iblk0
  rw [View.read_apply]
  show V c main_arg0 _ = V c main_arg0 _
  congr 1
  funext a; apply Fin.ext
  match a with
  | ⟨0, _⟩ => show win0_0.index t (0 : Fin 2) * 5000 + 1 * p.val = r.val; rw [e00, hr]; omega
  | ⟨1, _⟩ => show win0_0.index t (1 : Fin 2) * 64 + 1 * k.val = k.val; rw [e01]; omega

/-- The weight block of every point is the whole weight matrix. -/
theorem wt_blk_apply (c : Dev nD) (t : Fin cfg0.N) (k : Fin 64) (q : Fin 64) :
    (iblk0 (F := Ideal) V c 1 t : Vec Ideal S64x64 .f32) (ix2 k q) = V c main_v0 (ix2 k q) := by
  obtain ⟨-, -, e10, e11, -, -⟩ := proj_idx_facts t
  unfold iblk0
  rw [View.read_apply]
  show V c main_v0 _ = V c main_v0 _
  congr 1
  funext a; apply Fin.ext
  match a with
  | ⟨0, _⟩ => show win0_1.index t (0 : Fin 2) * 64 + 1 * k.val = k.val; rw [e10]; omega
  | ⟨1, _⟩ => show win0_1.index t (1 : Fin 2) * 64 + 1 * q.val = q.val; rw [e11]; omega

/-- The product of the whole arrays at an index whose coordinates are r and q. -/
theorem projG_at (x : (⟨2, ![100000, 64]⟩ : Shape).Idx → EReal) (w : (⟨2, ![64, 64]⟩ : Shape).Idx → EReal)
    (i : (⟨2, ![100000, 64]⟩ : Shape).Idx) (r : Fin 100000) (q : Fin 64) (h0 : (i 0).val = r.val) (h1 : (i 1).val = q.val) :
    projG x w i = ∑ k : Fin 64, x (ix2 r k) * w (ix2 k q) := by
  have e : i = ix2 r q := funext fun a => Fin.ext (by
    match a with
    | ⟨0, _⟩ => exact h0
    | ⟨1, _⟩ => exact h1)
  subst e
  rfl

/-! ## What a point writes back -/

/-- Point t writes back block t of the product of the whole arrays. -/
theorem proj_flushed (c : Dev nD) (t : Fin cfg0.N) :
    (dat0 (F := Ideal) V c).flushed 2 t
      = ((cfg0.win 2).blk t).view.read (Elt Ideal) (projG (V c main_arg0) (V c main_v0)) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S64x64) hz]
  obtain ⟨-, -, -, -, e20, e21⟩ := proj_idx_facts t
  have ht : t.val < 20 := lt_of_lt_of_eq t.isLt N_0
  refine funext fun (j : S5000x64.Idx) => ?_
  obtain ⟨p, q, rfl⟩ : ∃ (p : Fin 5000) (q : Fin 64), j = ix2 p q := ⟨j 0, j 1, eq_ix2 j⟩
  obtain ⟨r, hr⟩ : ∃ r : Fin 100000, r.val = t.val * 5000 + p.val := ⟨⟨t.val * 5000 + p.val, by omega⟩, rfl⟩
  show k0_pay1 (F := Ideal) (iblk0 V c 0 t) (iblk0 V c 1 t) (ix2 p q)
    = projG (V c main_arg0) (V c main_v0) (((cfg0.win 2).blk t).view.emb (ix2 p q))
  refine (proj_pay_apply _ _ p q).trans ?_
  refine Eq.trans ?_ (projG_at _ _ _ r q ?_ ?_).symm
  · exact Finset.sum_congr rfl fun k _ => by rw [feat_blk_apply V c t p k r hr, wt_blk_apply V c t k q]
  · show win0_2.index t (0 : Fin 2) * 5000 + 1 * p.val = r.val; rw [e20, hr]; omega
  · show win0_2.index t (1 : Fin 2) * 64 + 1 * q.val = q.val; rw [e21]; omega

/-! ## The blocks cover the array -/

/-- An index of the output array is in point t's block iff each coordinate is in the block's range on its axis. -/
theorem proj_mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v1).slice (win0_2.rect t)).set ↔ _
  rw [View.set_slice_whole, Rect.mem_set_unit]
  exact Iff.rfl

/-- Row r of the output array is in the block of point r / 5000, which is written back. -/
theorem proj_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, e20, e21⟩ := proj_idx_facts t
  refine ⟨t, flush0_2 t, ?_⟩
  rw [proj_mem_blk]
  intro a
  match a with
  | ⟨0, _⟩ =>
    show win0_2.index t (0 : Fin 2) * 5000 ≤ (i 0).val ∧ (i 0).val < win0_2.index t (0 : Fin 2) * 5000 + 5000
    rw [e20, ht]; omega
  | ⟨1, _⟩ =>
    show win0_2.index t (1 : Fin 2) * 64 ≤ (i 1).val ∧ (i 1).val < win0_2.index t (1 : Fin 2) * 64 + 64
    rw [e21]; omega

/-! ## The output array after the run -/

/-- The output array of the projection stage ends holding the product of the feature array with the weight matrix. -/
theorem proj_final (c : Dev nD) :
    (dat0 (F := Ideal) V c).arrAt 2 cfg0.N = projG (V c main_arg0) (V c main_v0) :=
  (dat0 (F := Ideal) V c).arrAt_eq_of_cover 2 (projG (V c main_arg0) (V c main_v0))
    (fun t _ => proj_flushed V c t) proj_cover

end Cert.KernelIdeal.Hand
end
-- ==== Proof.Combine.lean ====
/-
  The readout stage on the whole array.

  The second kernel region walks the 100000 rows in twenty blocks of 5000 rows. On each block it adds the two aggregated
  branches and their two biases, takes the maximum with zero, weights each of the 32 lanes by the readout row, sums the
  lanes, and adds the readout bias. Proved here, in this order: the block's result entry by entry (`comb_pay_apply`); each
  input block as rows of its array, the biases, the readout row and the readout bias being read whole at every point
  (`comb_branch_a_blk` … `comb_readout_b_blk`); what a point writes back, as a block of `combG` of the arrays the region
  finds (`comb_flushed`); and, since row `r` lies in block `r / 5000` and so the twenty blocks cover the array, the
  result array as `combG` of those arrays (`comb_final`).
-/
import proofs.«140547_j43645457662174_1_alg».proof.Proof.Gen.KernelIdeal.Frame
import proofs.«140547_j43645457662174_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open scoped BigOperators

namespace Cert.KernelIdeal.Hand

open Cert.KernelIdeal Cert.KernelIdeal.Gen Cert.Spec Idealize.ShloMosaic.ValueIdx

/-- A vector of length `a` viewed as a column reads, at `(i, u)`, the vector at `i`: both have row-major position `i`. -/
theorem comb_shapeCast_vec_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The index the lane sum inserts coordinate `k` into, at row `p`, is `(p, k)`. -/
theorem comb_lift_row (p : Fin 5000) (k : Fin 32) :
    reduces_S5000x32_S5000.lift (ix1 p) k = ix2 p k :=
  funext fun a => Fin.ext (match a with | ⟨0, _⟩ => rfl | ⟨1, _⟩ => rfl)

/-- The sum over the 32 lanes of a `5000 × 32` block, at row `p`, is the `Fin 32`-indexed sum of the row's entries. -/
theorem comb_lane_sum_apply (src : FVec Ideal S5000x32 .f32) (hφ : FKind.Formats .f32)
    (hacc : (0x00000000#32 : BitVec 32) = 0x00000000#32) (p : Fin 5000) :
    multiReduction .add [1] S5000 src 0x00000000#32 reduces_S5000x32_S5000 hφ hacc (ix1 p)
      = ∑ k : Fin 32, src (ix2 p k) :=
  (Ideal.multiReduction_add_single src 0x00000000#32 reduces_S5000x32_S5000 hφ hacc (ix1 p)).trans
    (Finset.sum_congr rfl fun k _ => congrArg src (comb_lift_row p k))

/-- THE BODY'S RESULT AT `(p, z)`: the rectified sum of the two branches and their biases along row `p`, weighted by the
    readout row and summed over the 32 lanes, plus the readout bias. -/
theorem comb_pay_apply (x0 x1 : Vec Ideal S5000x32 .f32) (x2 x3 : Vec Ideal S32 .f32) (x4 : Vec Ideal S1x32 .f32)
    (x5 : Vec Ideal S1 .f32) (p : Fin 5000) (z : Fin 1) :
    k1_pay1 (F := Ideal) x0 x1 x2 x3 x4 x5 (ix2 p z)
      = (∑ k : Fin 32, max (x0 (ix2 p k) + x1 (ix2 p k) + x2 (ix1 k) + x3 (ix1 k)) 0 * x4 (ix2 0 k)) + x5 (ix1 0) := by
  obtain rfl : z = 0 := Subsingleton.elim _ _
  unfold k1_pay1
  rw [addf_apply, comb_shapeCast_vec_col_apply, broadcastTo_1b_ab_apply, shapeCast_a_1a_apply, comb_lane_sum_apply]
  refine congrArg₂ (· + ·) ?_ rfl
  refine Finset.sum_congr rfl fun k _ => ?_
  simp only [mulf_apply, maximumf_apply, addf_apply, shapeCast_self, broadcast_apply, broadcastTo_1b_ab_apply,
    shapeCast_a_1a_apply]
  rw [show (FloatOps.ofBits FTy.f32 0x00000000#32 : Ideal .f32) = 0 from Ideal.ofBits_zero_f32]

variable (V : (c : Dev nD) → (b : Ref sig .tc) → Buf (Elt Ideal) ((c : Thread nD τ).loc b))

theorem comb_zero_off2 : (![0, 0] : Fin 2 → Nat) = fun _ => 0 := funext fun a => by fin_cases a <;> rfl
theorem comb_zero_off1 : (![0] : Fin 1 → Nat) = fun _ => 0 := funext fun a => by fin_cases a <;> rfl

/-- The index maps over the grid's 20 points: the two branches and the output move down one block of rows per point, and the
    biases, the readout row and the readout bias stay at their one block. -/
theorem comb_index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of the first branch's block at point `t` is row `5000 t + p` of the array. -/
theorem comb_branch_a_blk (c : Dev nD) (t : Fin cfg1.N) (p : Fin 5000) (k : Fin 32) (r : Fin 100000)
    (hr : r.val = t.val * 5000 + p.val) :
    (iblk1 V c 0 t : Vec Ideal S5000x32 .f32) (ix2 p k) = (V c main_v46 : S100000x32.Idx → EReal) (ix2 r k) := by
  obtain ⟨e0, e1, -⟩ := comb_index_facts t
  unfold iblk1
  rw [View.read_apply]
  show (V c main_v46 : S100000x32.Idx → EReal) (((cfg1.win 0).blk t).view.emb (ix2 p k)) = _
  congr 1
  funext a
  apply Fin.ext
  match a with
  | ⟨0, _⟩ => show win1_0.index t (0 : Fin 2) * 5000 + 1 * p.val = r.val; omega
  | ⟨1, _⟩ => show win1_0.index t (1 : Fin 2) * 32 + 1 * k.val = k.val; omega

/-- Row `p` of the second branch's block at point `t` is row `5000 t + p` of the array. -/
theorem comb_branch_s_blk (c : Dev nD) (t : Fin cfg1.N) (p : Fin 5000) (k : Fin 32) (r : Fin 100000)
    (hr : r.val = t.val * 5000 + p.val) :
    (iblk1 V c 1 t : Vec Ideal S5000x32 .f32) (ix2 p k) = (V c main_v89 : S100000x32.Idx → EReal) (ix2 r k) := by
  obtain ⟨-, -, e0, e1, -⟩ := comb_index_facts t
  unfold iblk1
  rw [View.read_apply]
  show (V c main_v89 : S100000x32.Idx → EReal) (((cfg1.win 1).blk t).view.emb (ix2 p k)) = _
  congr 1
  funext a
  apply Fin.ext
  match a with
  | ⟨0, _⟩ => show win1_1.index t (0 : Fin 2) * 5000 + 1 * p.val = r.val; omega
  | ⟨1, _⟩ => show win1_1.index t (1 : Fin 2) * 32 + 1 * k.val = k.val; omega

/-- The first bias is read whole at every point. -/
theorem comb_bias_n_blk (c : Dev nD) (t : Fin cfg1.N) (k : Fin 32) :
    (iblk1 V c 2 t : Vec Ideal S32 .f32) (ix1 k) = (V c main_arg4 : S32.Idx → EReal) (ix1 k) := by
  obtain ⟨-, -, -, -, e0, -⟩ := comb_index_facts t
  unfold iblk1
  rw [View.read_apply]
  show (V c main_arg4 : S32.Idx → EReal) (((cfg1.win 2).blk t).view.emb (ix1 k)) = _
  congr 1
  funext a
  apply Fin.ext
  match a with
  | ⟨0, _⟩ => show win1_2.index t (0 : Fin 1) * 32 + 1 * k.val = k.val; omega

/-- The second bias is read whole at every point. -/
theorem comb_bias_s_blk (c : Dev nD) (t : Fin cfg1.N) (k : Fin 32) :
    (iblk1 V c 3 t : Vec Ideal S32 .f32) (ix1 k) = (V c main_arg6 : S32.Idx → EReal) (ix1 k) := by
  obtain ⟨-, -, -, -, -, e0, -⟩ := comb_index_facts t
  unfold iblk1
  rw [View.read_apply]
  show (V c main_arg6 : S32.Idx → EReal) (((cfg1.win 3).blk t).view.emb (ix1 k)) = _
  congr 1
  funext a
  apply Fin.ext
  match a with
  | ⟨0, _⟩ => show win1_3.index t (0 : Fin 1) * 32 + 1 * k.val = k.val; omega

/-- The readout row is read whole at every point. -/
theorem comb_readout_w_blk (c : Dev nD) (t : Fin cfg1.N) (k : Fin 32) :
    (iblk1 V c 4 t : Vec Ideal S1x32 .f32) (ix2 (0 : Fin 1) k) = (V c main_v90 : S1x32.Idx → EReal) (ix2 (0 : Fin 1) k) := by
  obtain ⟨-, -, -, -, -, -, e0, e1, -⟩ := comb_index_facts t
  unfold iblk1
  rw [View.read_apply]
  show (V c main_v90 : S1x32.Idx → EReal) (((cfg1.win 4).blk t).view.emb (ix2 (0 : Fin 1) k)) = _
  congr 1
  funext a
  apply Fin.ext
  match a with
  | ⟨0, _⟩ => show win1_4.index t (0 : Fin 2) * 1 + 1 * 0 = 0; omega
  | ⟨1, _⟩ => show win1_4.index t (1 : Fin 2) * 32 + 1 * k.val = k.val; omega

/-- The readout bias is read whole at every point. -/
theorem comb_readout_b_blk (c : Dev nD) (t : Fin cfg1.N) :
    (iblk1 V c 5 t : Vec Ideal S1 .f32) (ix1 (0 : Fin 1)) = (V c main_arg8 : S1.Idx → EReal) (ix1 (0 : Fin 1)) := by
  obtain ⟨-, -, -, -, -, -, -, -, e0, -⟩ := comb_index_facts t
  unfold iblk1
  rw [View.read_apply]
  show (V c main_arg8 : S1.Idx → EReal) (((cfg1.win 5).blk t).view.emb (ix1 (0 : Fin 1))) = _
  congr 1
  funext a
  apply Fin.ext
  match a with
  | ⟨0, _⟩ => show win1_5.index t (0 : Fin 1) * 1 + 1 * 0 = 0; omega

/-- Entry `(p, z)` of the output's block at point `t` is entry `(5000 t + p, 0)` of the array. -/
theorem comb_out_blk_emb (t : Fin cfg1.N) (p : Fin 5000) (z : Fin 1) :
    ∃ r : Fin 100000, (((cfg1.win 6).blk t).view.emb (ix2 p z) : S100000x1.Idx) = ix2 r (0 : Fin 1)
      ∧ r.val = t.val * 5000 + p.val := by
  obtain ⟨-, -, -, -, -, -, -, -, -, e0, e1⟩ := comb_index_facts t
  have ht : t.val < 20 := t.isLt
  refine ⟨⟨t.val * 5000 + p.val, by omega⟩, ?_, rfl⟩
  funext a
  apply Fin.ext
  match a with
  | ⟨0, _⟩ => show win1_6.index t (0 : Fin 2) * 5000 + 1 * p.val = t.val * 5000 + p.val; omega
  | ⟨1, _⟩ => show win1_6.index t (1 : Fin 2) * 1 + 1 * z.val = 0; omega

/-- WHAT POINT `t` WRITES BACK is block `t` of the readout of the arrays as the region finds them. -/
theorem comb_flushed (c : Dev nD) (t : Fin cfg1.N) :
    (dat1 (F := Ideal) V c).flushed 6 t
      = ((cfg1.win 6).blk t).view.read (Elt Ideal)
          (combG (V c main_v46) (V c main_v89) (V c main_arg4) (V c main_arg6) (V c main_v90) (V c main_arg8)) := by
  show (cfg1.win 6).cut (grid1.coords t) ((dat1 V c).after 6 t) = _
  rw [after1_6]
  unfold out1_6
  rw [View.canon_unit_zero comb_zero_off2]
  simp only [View.ld_unit_zero (S := S5000x32) comb_zero_off2, View.ld_unit_zero (S := S32) comb_zero_off1,
    View.ld_unit_zero (S := S1x32) comb_zero_off2, View.ld_unit_zero (S := S1) comb_zero_off1]
  funext j
  obtain ⟨p, z, rfl⟩ : ∃ (p : Fin 5000) (z : Fin 1), j = ix2 p z := ⟨j 0, j 1, eq_ix2 j⟩
  obtain ⟨r, hr, hrv⟩ := comb_out_blk_emb t p z
  rw [View.read_apply, hr, combG_apply]
  refine (comb_pay_apply _ _ _ _ _ _ p z).trans ?_
  refine congrArg₂ (· + ·) ?_ ?_
  · refine Finset.sum_congr rfl fun k _ => ?_
    rw [comb_branch_a_blk V c t p k r hrv, comb_branch_s_blk V c t p k r hrv, comb_bias_n_blk V c t k, comb_bias_s_blk V c t k,
      comb_readout_w_blk V c t k]
  · exact comb_readout_b_blk V c t

/-- An index of the result is in point `t`'s block iff each coordinate is in the block's range on its axis. -/
theorem comb_mem_out_blk (t : Fin cfg1.N) (i : S100000x1.Idx) :
    i ∈ ((cfg1.win 6).blk t).view.set
      ↔ ∀ a : Fin 2, win1_6.index t a * S5000x1.size a ≤ (i a).val
          ∧ (i a).val < win1_6.index t a * S5000x1.size a + S5000x1.size a := by
  show i ∈ ((View.whole main_v91).slice (win1_6.rect t)).set ↔ _
  rw [View.set_slice_whole, Rect.mem_set_unit]
  exact Iff.rfl

/-- THE RESULT ARRAY after the region: the readout of the arrays as the region finds them. Row `r` is written by point
    `r / 5000`, so the twenty blocks cover the array. -/
theorem comb_final (c : Dev nD) :
    (dat1 (F := Ideal) V c).arrAt 6 cfg1.N
      = combG (V c main_v46) (V c main_v89) (V c main_arg4) (V c main_arg6) (V c main_v90) (V c main_arg8) :=
  (dat1 (F := Ideal) V c).arrAt_eq_of_cover 6 _ (fun t _ => comb_flushed V c t) fun i => by
    have hi0 : (i 0 : Nat) < 100000 := (i 0).isLt
    have hi1 : (i 1 : Nat) < 1 := (i 1).isLt
    have hq : (i 0 : Nat) / 5000 < 20 := by omega
    obtain ⟨-, -, -, -, -, -, -, -, -, e0, e1⟩ := comb_index_facts ⟨(i 0 : Nat) / 5000, hq⟩
    refine ⟨⟨(i 0 : Nat) / 5000, hq⟩, flush1_6 _, ?_⟩
    rw [comb_mem_out_blk]
    intro a
    match a with
    | ⟨0, _⟩ =>
      show win1_6.index ⟨(i 0 : Nat) / 5000, hq⟩ (0 : Fin 2) * 5000 ≤ (i 0 : Nat)
        ∧ (i 0 : Nat) < win1_6.index ⟨(i 0 : Nat) / 5000, hq⟩ (0 : Fin 2) * 5000 + 5000
      rw [e0]; show (i 0 : Nat) / 5000 * 5000 ≤ (i 0 : Nat) ∧ (i 0 : Nat) < (i 0 : Nat) / 5000 * 5000 + 5000; omega
    | ⟨1, _⟩ =>
      show win1_6.index ⟨(i 0 : Nat) / 5000, hq⟩ (1 : Fin 2) * 1 ≤ (i 1 : Nat)
        ∧ (i 1 : Nat) < win1_6.index ⟨(i 0 : Nat) / 5000, hq⟩ (1 : Fin 2) * 1 + 1
      omega

end Cert.KernelIdeal.Hand

end
-- ==== Proof.KernelValue.lean ====
/-
  The kernel program's result array as a function of the arguments: the last boundary's contents for the result buffer,
  walked back through the run. The readout region's array is the readout of the two aggregated arrays it finds; those are the
  reference's aggregations of the two halves of what the projection region left; that is the product of the node
  features with the two weight matrices joined side by side; every argument is read as launched. Regrouped, this is the
  reference's own result term.
-/
import proofs.«140547_j43645457662174_1_alg».proof.Proof.Fold
import proofs.«140547_j43645457662174_1_alg».proof.Proof.Bridge
import proofs.«140547_j43645457662174_1_alg».proof.Proof.KernelRun
import proofs.«140547_j43645457662174_1_alg».proof.Proof.Project
import proofs.«140547_j43645457662174_1_alg».proof.Proof.Combine

set_option maxRecDepth 16384

noncomputable section

namespace Cert.KernelIdeal.Hand

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- What the projection region leaves: the node features times the joined weight matrices. -/
theorem projected (c : Dev nD) :
    W2 m ρ c (Proc.devRef .tc main_v1)
      = projG (m ((c : Thread nD τ).loc main_arg0))
          (concatenate S64x64 1 [⟨S64x32, m ((c : Thread nD τ).loc main_arg3)⟩, ⟨S64x32, m ((c : Thread nD τ).loc main_arg5)⟩]
            concatenates_S64x32_S64x32_S64x64_d1) := by
  have h := (W2_arr m ρ c 2).trans (proj_final (V1 m ρ) c)
  have v0 : V1 m ρ c main_v0 = _ := W1_joined m ρ c
  have a0 : V1 m ρ c main_arg0 = m ((c : Thread nD τ).loc main_arg0) := W1_kept m ρ c main_arg0 (by decide)
  rw [v0, a0] at h
  exact h

/-- What the readout region finds in its six input arrays. -/
theorem found_near (c : Dev nD) :
    V7 m ρ c main_v46
      = Cert.ReferenceIdeal.Hand.aggNear
          (extractStridedSlice S100000x32 ![0, 0] (W2 m ρ c (Proc.devRef .tc main_v1)) slices_S100000x64_S100000x32_0_0)
          (m ((c : Thread nD τ).loc main_arg1)) := by
  have h := mid_near (W2 m ρ c)
  rw [W2_kept m ρ c main_arg1 (by decide) (by decide)] at h
  exact h
theorem found_sim (c : Dev nD) :
    V7 m ρ c main_v89
      = Cert.ReferenceIdeal.Hand.aggSim
          (extractStridedSlice S100000x32 ![0, 32] (W2 m ρ c (Proc.devRef .tc main_v1)) slices_S100000x64_S100000x32_0_32)
          (m ((c : Thread nD τ).loc main_arg2)) := by
  have h := mid_sim (W2 m ρ c)
  rw [W2_kept m ρ c main_arg2 (by decide) (by decide)] at h
  exact h
theorem found_row (c : Dev nD) :
    V7 m ρ c main_v90 = shapeCast S1x32 (m ((c : Thread nD τ).loc main_arg7)) shapeCasts_S32x1_S1x32 := by
  have h := mid_row (W2 m ρ c)
  rw [W2_kept m ρ c main_arg7 (by decide) (by decide)] at h
  exact h
theorem found_arg4 (c : Dev nD) : V7 m ρ c main_arg4 = m ((c : Thread nD τ).loc main_arg4) :=
  (mid_arg4 (W2 m ρ c)).trans (W2_kept m ρ c main_arg4 (by decide) (by decide))
theorem found_arg6 (c : Dev nD) : V7 m ρ c main_arg6 = m ((c : Thread nD τ).loc main_arg6) :=
  (mid_arg6 (W2 m ρ c)).trans (W2_kept m ρ c main_arg6 (by decide) (by decide))
theorem found_arg8 (c : Dev nD) : V7 m ρ c main_arg8 = m ((c : Thread nD τ).loc main_arg8) :=
  (mid_arg8 (W2 m ρ c)).trans (W2_kept m ρ c main_arg8 (by decide) (by decide))

/-- THE RESULT: the last boundary's contents of the result buffer are the reference's result term of the arguments. -/
theorem kernel_result (c : Dev nD) :
    W9 m ρ c (Proc.devRef .tc main_v92)
      = Cert.ReferenceIdeal.Read.val_main_v100 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have h := (W8_arr m ρ c 6).trans (comb_final (V7 m ρ) c)
  rw [found_near, found_sim, found_row, found_arg4, found_arg6, found_arg8, projected] at h
  rw [W9_result]
  refine (congrArg (fun y => shapeCast S100000 y shapeCasts_S100000x1_S100000) h).trans ?_
  exact Cert.Bridge.result_eq _ _ _ _ _ _ _ _ _ _ _ _ _ _

/-- The kernel program's run with its result named. -/
theorem run : θ_run defs (onTc (τ := τ) (main (F := Ideal))) ⟨m, fun _ => 0, ρ⟩ (fun r => ∀ c : Dev nD,
      r.2.mem ((c.tc : Thread nD τ).loc main_v92)
        = Cert.ReferenceIdeal.Read.val_main_v100 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (kernel_result m ρ c), (h c).2⟩)
    (Cert.KernelIdeal.Named.run_named (F := Ideal) m ρ)

end Cert.KernelIdeal.Hand

end
-- ==== Proof.lean ====
/-
  A two-branch graph convolution layer with a scalar readout, on 100000 nodes with 64 features and two edge lists.
  Each branch projects the node features to 32 channels, aggregates the projected rows along its edge list with the
  symmetric degree normalisation (self-loops included), and adds a bias; the two branches are added, rectified, and read
  out by a 32 → 1 linear map with a bias.

  The kernel program computes both projections in one product with the two weight matrices joined side by side, cuts the
  product in two, aggregates each half on the host exactly as the reference does, and fuses bias, sum, rectifier and readout
  in a second pass over the nodes. On the extended reals the two programs are one function of the arguments:
    * each half of the joined product is the product with that branch's own matrix (the same 64-term sum, term by term);
    * the aggregation is the same function on both sides, applied to equal operands, and is never opened;
    * (a + s) + bn + bs = (a + bn) + (s + bs) by commutativity and associativity of addition alone;
    * a weighted lane sum against the readout weights as a row is the matrix product with them as a column.
  No step cancels or distributes, so the finiteness of the inputs is not used.

  The frames: every program terminates without a fault and leaves its arguments unchanged (the two kernel programs by the
  launch of their two pipelined regions among the host operations, the reference by the run of its host operations).
  The kernel's idealization rewrote no operation, so there is nothing to preserve.
-/
import proofs.«140547_j43645457662174_1_alg».proof.Defs
import proofs.«140547_j43645457662174_1_alg».proof.Proof.Gen.Kernel
import proofs.«140547_j43645457662174_1_alg».proof.Proof.Gen.Kernel.Frame
import proofs.«140547_j43645457662174_1_alg».proof.Proof.Gen.KernelIdeal
import proofs.«140547_j43645457662174_1_alg».proof.Proof.Gen.KernelIdeal.Frame
import proofs.«140547_j43645457662174_1_alg».proof.Proof.Gen.ReferenceIdeal
import proofs.«140547_j43645457662174_1_alg».proof.Proof.Gen.Pre_finite_inputs
import proofs.«140547_j43645457662174_1_alg».proof.Proof.RefRun
import proofs.«140547_j43645457662174_1_alg».proof.Proof.RefReadAt
import proofs.«140547_j43645457662174_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten by the idealization. -/
theorem preserves : Cert.preserves_Kernel_KernelIdeal := trivial

/-- From memories that agree on the arguments both programs end with the same result array: the reference's result term
    of the arguments, which the kernel program's result was shown to be. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v100_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
